-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 77
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x1, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v42) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000, .i32⟩
  | .hbm, ⟨63, _⟩ => ⟨S1700000, .i32⟩
  | .hbm, ⟨64, _⟩ => ⟨S1700000, .i32⟩
  | .hbm, ⟨65, _⟩ => ⟨S_, .f32⟩
  | .hbm, ⟨66, _⟩ => ⟨S1700000, .f32⟩
  | .hbm, ⟨67, _⟩ => ⟨S_, .f32⟩
  | .hbm, ⟨68, _⟩ => ⟨S100000, .f32⟩
  | .hbm, ⟨69, _⟩ => ⟨S1700000x1, .i32⟩
  | .hbm, ⟨70, _⟩ => ⟨S100000, .f32⟩
  | .hbm, ⟨71, _⟩ => ⟨S100000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000, .f32⟩
  | .hbm, ⟨90, _⟩ => ⟨S1700000, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x1, .f32⟩
  | .hbm, ⟨102, _⟩ => ⟨S1700000x64, .f32⟩
  | .hbm, ⟨103, _⟩ => ⟨S1700000x64, .f32⟩
  | .hbm, ⟨104, _⟩ => ⟨S_, .f32⟩
  | .hbm, ⟨105, _⟩ => ⟨S100000x64, .f32⟩
  | .hbm, ⟨106, _⟩ => ⟨S1700000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .hbm, ⟨111, _⟩ => ⟨S_, .f32⟩
  | .hbm, ⟨112, _⟩ => ⟨S100000x64, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_15 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_call1_cst : Ref sig .tc := ⟨.hbm, 111, rfl⟩
abbrev main_call1_v0 : Ref sig .tc := ⟨.hbm, 112, rfl⟩
abbrev main_v85 : Ref sig .tc := ⟨.hbm, 113, rfl⟩
abbrev main_v86 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.Reg0.lean ====
/-
  The first dense layer's product, read as one array. The region runs twenty grid points; point t loads rows
  5000·t … 5000·t + 4999 of the left operand and the whole right operand, and writes back the product of the two
  (the narrowing to bf16 before the product is the identity on extended reals, and a product accumulated into
  the zero array is the plain sum over the contracted axis). The twenty row blocks tile the result, so after
  the region the result array holds, at row p and column q, the sum over k of left(p, k) · right(k, q).
-/
import proofs.«144482_j32693291057233_1_alg».proof.Proof.Gen.KernelIdeal.Frame
import proofs.«144482_j32693291057233_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The matrix product of a [100000, 128] array with a [128, 64] array, entry by entry. -/
def G (x : FVec Ideal S100000x128 .f32) (w : FVec Ideal S128x64 .f32) : FVec Ideal S100000x64 .f32 :=
  fun i => ∑ k : Fin 128, x (ix2 ⟨(i 0).val, (i 0).isLt⟩ k) * w (ix2 k ⟨(i 1).val, (i 1).isLt⟩)

/-- The offset of a whole-block access, both coordinates zero, is the zero function. -/
theorem zero_offsets : (![0, 0] : Fin 2 → Nat) = fun _ => 0 := funext fun a => by fin_cases a <;> rfl

/-- The index maps over the grid: the left operand's row block and the result's row block move together on axis 0 and
    sit at column block 0; the right operand's one block is block (0, 0); the row block index stays below twenty. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every row block of the result is some point's. -/
theorem row_block_onto : ∀ (b : Fin 20), ∃ t : Fin cfg0.N, win0_2.index t = ![b.val, 0] :=
  (by decide +kernel : ∀ (b : Fin 20), ∃ t : Fin grid0.N, win0_2.index t = ![b.val, 0])

/-- One entry of the payload: the narrowing of both operands is the identity on extended reals, and the product
    accumulated into the zero array is the plain sum over the contracted axis. -/
theorem product_entry (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Cert.Lib.PlainDot.matmul_zero_apply dot_S5000x128_S128x64_S5000x64_1_0_0_1_n_n rfl rfl rfl rfl rfl rfl none
    (truncf .bf16 x0 bitsLt_bf16_f32) (truncf .bf16 x1 bitsLt_bf16_f32) p q

set_option maxHeartbeats 400000 in
/-- What point t writes back is row block t of the product of the two operand arrays: entry (p, q) of the block is the
    sum over k of the left block's entry (p, k), which is the left array's entry (5000·t + p, k), times the right
    array's entry (k, q). -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := block_indices t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q)
    = G (V c main_arg0) (V c main_arg2) (((cfg0.win 2).blk t).view.emb (ix2 p q))
  rw [product_entry]
  unfold G
  refine Finset.sum_congr rfl fun k _ => ?_
  have hl : ((cfg0.win 0).blk t).view.emb (ix2 p k)
      = ix2 ⟨((((cfg0.win 2).blk t).view.emb (ix2 p q)) 0).val, ((((cfg0.win 2).blk t).view.emb (ix2 p q)) 0).isLt⟩ k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hr : ((cfg0.win 1).blk t).view.emb (ix2 k q)
      = ix2 k ⟨((((cfg0.win 2).blk t).view.emb (ix2 p q)) 1).val, ((((cfg0.win 2).blk t).view.emb (ix2 p q)) 1).isLt⟩ := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  exact congrArg₂ (· * ·) (congrArg (V c main_arg0) hl) (congrArg (V c main_arg2) hr)

/-- An index of the result array is in point t's block iff each coordinate is in the block's range on its axis. -/
theorem mem_row_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- The twenty row blocks tile the result: row r lies in the block of the point whose row block index is r / 5000. -/
theorem row_blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := row_block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_row_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its result array is the matrix product of its two operand arrays as the region found them. -/
theorem final (c : Dev nD) : (dat0 V c).arrAt 2 cfg0.N = G (V c main_arg0) (V c main_arg2) :=
  (dat0 V c).arrAt_eq_of_cover 2 (G (V c main_arg0) (V c main_arg2)) (fun t _ => flushed_eq V c t) row_blocks_cover

end Cert.KernelIdeal.Reg0

end
-- ==== Proof.Reg1.lean ====
/-
  The first layer's bias and rectifier, read as one array. Point t loads rows 5000·t … 5000·t + 4999 of the
  aggregated array and the one bias row, adds the bias row to every row and takes the maximum with zero; the
  row blocks tile the result, so after the region entry (p, q) of the result is max(agg(p, q) + bias(0, q), 0).
-/
import proofs.«144482_j32693291057233_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Bias row added to every row, then the maximum with zero, entry by entry. -/
def G (a : FVec Ideal S100000x64 .f32) (b : FVec Ideal S1x64 .f32) : FVec Ideal S100000x64 .f32 :=
  fun i => max (a i + b (ix2 (0 : Fin 1) ⟨(i 1).val, (i 1).isLt⟩)) (Ideal.ofBits .f32 0x00000000#32)

/-- The offset of a whole-block rectangle is zero on both axes. -/
theorem zero_offset : (![0, 0] : Fin 2 → Nat) = fun _ => 0 := funext fun a => by fin_cases a <;> rfl

/-- The body's payload at entry (p, q) of a row block: the block's entry plus the bias row's entry q, maximum with zero. -/
theorem payload_apply (x0 : Vec Ideal S5000x64 .f32) (x1 : Vec Ideal S1x64 .f32) (p : Fin 5000) (q : Fin 64) :
    k1_pay1 x0 x1 (ix2 p q) = max (x0 (ix2 p q) + x1 (ix2 (0 : Fin 1) q)) (Ideal.ofBits .f32 0x00000000#32) := by
  unfold k1_pay1
  rw [shapeCast_self, shapeCast_self]
  rw [maximumf_apply, addf_apply, broadcastTo_1b_ab_apply]
  rfl

/-- The rectified biased array at an entry, from the operands read where the entry's row and column say. -/
theorem entry_eq (a : FVec Ideal S100000x64 .f32) (b : FVec Ideal S1x64 .f32) (i0 i2 : S100000x64.Idx) (i1 : S1x64.Idx)
    (h0 : i0 = i2) (h1 : i1 = ix2 (0 : Fin 1) ⟨(i2 1).val, (i2 1).isLt⟩) :
    max (a i0 + b i1) (Ideal.ofBits .f32 0x00000000#32) = G a b i2 := by
  subst h0 h1; rfl

/-- The index maps over the grid: the row-block windows sit at block (t, 0), the bias row at block (0, 0). -/
theorem block_indices : ∀ t : Fin cfg1.N, win1_0.index t (0 : Fin 2) = win1_2.index t (0 : Fin 2)
    ∧ win1_0.index t (1 : Fin 2) = 0
    ∧ win1_2.index t (1 : Fin 2) = 0
    ∧ win1_1.index t (0 : Fin 2) = 0
    ∧ win1_1.index t (1 : Fin 2) = 0
    ∧ win1_2.index t (0 : Fin 2) ≤ 19 :=
  (by decide +kernel : ∀ t : Fin grid1.N, _)

/-- Every row block is some point's. -/
theorem row_block_onto : ∀ (r : Fin 20), ∃ t : Fin cfg1.N, win1_2.index t = ![r.val, 0] :=
  (by decide +kernel : ∀ (r : Fin 20), ∃ t : Fin grid1.N, win1_2.index t = ![r.val, 0])

/-- What point t writes back is row block t of the rectified biased array. -/
theorem flushed_eq (c : Dev nD) (t : Fin cfg1.N) :
    (dat1 V c).flushed 2 t = ((cfg1.win 2).blk t).view.read (Elt Ideal) (G (V c main_v40) (V c main_v41)) := by
  show (cfg1.win 2).cut (grid1.coords t) ((dat1 V c).after 2 t) = _
  rw [after1_2]
  unfold out1_2
  rw [View.canon_unit_zero zero_offset]
  simp only [View.ld_unit_zero (S := S5000x64) zero_offset, View.ld_unit_zero (S := S1x64) zero_offset]
  obtain ⟨e0, e1, e2, e3, e4, e5⟩ := block_indices t
  funext j
  obtain ⟨p, q, rfl⟩ : ∃ (p : Fin 5000) (q : Fin 64), j = ix2 p q := ⟨j 0, j 1, eq_ix2 j⟩
  show k1_pay1 (iblk1 V c 0 t) (iblk1 V c 1 t) (ix2 p q) = G (V c main_v40) (V c main_v41) (((cfg1.win 2).blk t).view.emb (ix2 p q))
  rw [payload_apply]
  have rows_agree : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have bias_entry : ((cfg1.win 1).blk t).view.emb (ix2 (0 : Fin 1) q)
      = ix2 (0 : Fin 1) ⟨((((cfg1.win 2).blk t).view.emb (ix2 p q)) 1).val, ((((cfg1.win 2).blk t).view.emb (ix2 p q)) 1).isLt⟩ := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact entry_eq (V c main_v40) (V c main_v41) _ _ _ rows_agree bias_entry

/-- An index of the array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v42).slice (win1_2.rect t)).set ↔ _
  rw [View.set_slice_whole, Rect.mem_set_unit]
  exact Iff.rfl

/-- The row blocks tile the array: row r is in the block of the point whose block index is r / 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := row_block_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After the region its result array is the rectified biased array of its operands as the region found them. -/
theorem final (c : Dev nD) : (dat1 V c).arrAt 2 cfg1.N = G (V c main_v40) (V c main_v41) :=
  (dat1 V c).arrAt_eq_of_cover 2 (G (V c main_v40) (V c main_v41)) (fun t _ => flushed_eq V c t) cover

end Cert.KernelIdeal.Reg1

end
-- ==== Proof.Reg2.lean ====
/-
  The second dense layer's product, read as one array: as for the first layer, with a [100000, 64] left operand
  (the first layer's activations) and a [64, 64] right operand. Point t loads rows 5000·t … 5000·t + 4999 of the
  left operand and the whole right operand and writes back their product; the row blocks tile the result.
-/
import proofs.«144482_j32693291057233_1_alg».proof.Proof.Gen.KernelIdeal.Frame
import proofs.«144482_j32693291057233_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The matrix product of a [100000, 64] array with a [64, 64] array, entry by entry. -/
def G (x : FVec Ideal S100000x64 .f32) (w : FVec Ideal S64x64 .f32) : FVec Ideal S100000x64 .f32 :=
  fun i => ∑ k : Fin 64, x (ix2 ⟨(i 0).val, (i 0).isLt⟩ k) * w (ix2 k ⟨(i 1).val, (i 1).isLt⟩)

/-- The offset of a whole-block access, both coordinates zero, is the zero function. -/
theorem zero_offsets : (![0, 0] : Fin 2 → Nat) = fun _ => 0 := funext fun a => by fin_cases a <;> rfl

/-- The index maps over the grid: the left operand's row block and the result's row block move together on axis 0 and
    sit at column block 0; the right operand's one block is block (0, 0); the row block index stays below twenty. -/
theorem block_indices : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every row block of the result is some point's. -/
theorem row_block_onto : ∀ (b : Fin 20), ∃ t : Fin cfg2.N, win2_2.index t = ![b.val, 0] :=
  (by decide +kernel : ∀ (b : Fin 20), ∃ t : Fin grid2.N, win2_2.index t = ![b.val, 0])

/-- One entry of the payload: the reshape of the left block to its own shape and the narrowing of both operands are
    the identity on extended reals, and the product accumulated into the zero array is the plain sum over the
    contracted axis. -/
theorem product_entry (x0 : Vec Ideal S5000x64 .f32) (x1 : Vec Ideal S64x64 .f32) (p : Fin 5000) (q : Fin 64) :
    k2_pay1 x0 x1 (ix2 p q) = ∑ k : Fin 64, x0 (ix2 p k) * x1 (ix2 k q) := by
  unfold k2_pay1
  refine (Cert.Lib.PlainDot.matmul_zero_apply dot_S5000x64_S64x64_S5000x64_1_0_0_1_n_n rfl rfl rfl rfl rfl rfl none
    (truncf .bf16 (shapeCast S5000x64 x0 shapeCasts_S5000x64_S5000x64) bitsLt_bf16_f32)
    (truncf .bf16 x1 bitsLt_bf16_f32) p q).trans ?_
  rw [shapeCast_self]
  rfl

set_option maxHeartbeats 400000 in
/-- What point t writes back is row block t of the product of the two operand arrays: entry (p, q) of the block is the
    sum over k of the left block's entry (p, k), which is the left array's entry (5000·t + p, k), times the right
    array's entry (k, q). -/
theorem flushed_eq (c : Dev nD) (t : Fin cfg2.N) :
    (dat2 V c).flushed 2 t = ((cfg2.win 2).blk t).view.read (Elt Ideal) (G (V c main_v42) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x64) zero_offsets]
  obtain ⟨e0, e1, e2, e3, e4, e5⟩ := block_indices t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = G (V c main_v42) (V c main_arg4) (((cfg2.win 2).blk t).view.emb (ix2 p q))
  rw [product_entry]
  unfold G
  refine Finset.sum_congr rfl fun k _ => ?_
  have hl : ((cfg2.win 0).blk t).view.emb (ix2 p k)
      = ix2 ⟨((((cfg2.win 2).blk t).view.emb (ix2 p q)) 0).val, ((((cfg2.win 2).blk t).view.emb (ix2 p q)) 0).isLt⟩ k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have hr : ((cfg2.win 1).blk t).view.emb (ix2 k q)
      = ix2 k ⟨((((cfg2.win 2).blk t).view.emb (ix2 p q)) 1).val, ((((cfg2.win 2).blk t).view.emb (ix2 p q)) 1).isLt⟩ := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  exact congrArg₂ (· * ·) (congrArg (V c main_v42) hl) (congrArg (V c main_arg4) hr)

/-- An index of the result array is in point t's block iff each coordinate is in the block's range on its axis. -/
theorem mem_row_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- The twenty row blocks tile the result: row r lies in the block of the point whose row block index is r / 5000. -/
theorem row_blocks_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := row_block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_row_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region its result array is the matrix product of its two operand arrays as the region found them. -/
theorem final (c : Dev nD) : (dat2 V c).arrAt 2 cfg2.N = G (V c main_v42) (V c main_arg4) :=
  (dat2 V c).arrAt_eq_of_cover 2 (G (V c main_v42) (V c main_arg4)) (fun t _ => flushed_eq V c t) row_blocks_cover

end Cert.KernelIdeal.Reg2

end
-- ==== Proof.Reg3.lean ====
/-
  The second layer's bias, rectifier and residual, read as one array. Point t loads rows 5000·t … 5000·t + 4999
  of the aggregated array and of the first layer's activations and the one bias row; it adds the bias row to
  every aggregated row, takes the maximum with zero and adds the activations. The row blocks tile the result, so
  after the region entry (p, q) of the result is max(agg(p, q) + bias(0, q), 0) + h(p, q).
-/
import proofs.«144482_j32693291057233_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg3

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Bias row added to every row, the maximum with zero, then the residual added, entry by entry. -/
def G (a : FVec Ideal S100000x64 .f32) (b : FVec Ideal S1x64 .f32) (h : FVec Ideal S100000x64 .f32) :
    FVec Ideal S100000x64 .f32 :=
  fun i => max (a i + b (ix2 (0 : Fin 1) ⟨(i 1).val, (i 1).isLt⟩)) (Ideal.ofBits .f32 0x00000000#32) + h i

/-- The offset of a whole-block rectangle is zero on both axes. -/
theorem zero_offset : (![0, 0] : Fin 2 → Nat) = fun _ => 0 := funext fun a => by fin_cases a <;> rfl

/-- The body's payload at entry (p, q) of a row block: the aggregated block's entry plus the bias row's entry q,
    maximum with zero, plus the residual block's entry. -/
theorem payload_apply (x0 : Vec Ideal S5000x64 .f32) (x1 : Vec Ideal S1x64 .f32) (x2 : Vec Ideal S5000x64 .f32)
    (p : Fin 5000) (q : Fin 64) :
    k3_pay1 x0 x1 x2 (ix2 p q)
      = max (x0 (ix2 p q) + x1 (ix2 (0 : Fin 1) q)) (Ideal.ofBits .f32 0x00000000#32) + x2 (ix2 p q) := by
  unfold k3_pay1
  rw [shapeCast_self, shapeCast_self, shapeCast_self]
  rw [addf_apply, maximumf_apply, addf_apply, broadcastTo_1b_ab_apply]
  rfl

/-- The result array at an entry, from the operands read where the entry's row and column say. -/
theorem entry_eq (a : FVec Ideal S100000x64 .f32) (b : FVec Ideal S1x64 .f32) (h : FVec Ideal S100000x64 .f32)
    (i0 i2 i3 : S100000x64.Idx) (i1 : S1x64.Idx)
    (h0 : i0 = i3) (h1 : i1 = ix2 (0 : Fin 1) ⟨(i3 1).val, (i3 1).isLt⟩) (h2 : i2 = i3) :
    max (a i0 + b i1) (Ideal.ofBits .f32 0x00000000#32) + h i2 = G a b h i3 := by
  subst h0 h1 h2; rfl

/-- The index maps over the grid: the three row-block windows sit at block (t, 0), the bias row at block (0, 0). -/
theorem block_indices : ∀ t : Fin cfg3.N, win3_0.index t (0 : Fin 2) = win3_3.index t (0 : Fin 2)
    ∧ win3_0.index t (1 : Fin 2) = 0
    ∧ win3_2.index t (0 : Fin 2) = win3_3.index t (0 : Fin 2)
    ∧ win3_2.index t (1 : Fin 2) = 0
    ∧ win3_3.index t (1 : Fin 2) = 0
    ∧ win3_1.index t (0 : Fin 2) = 0
    ∧ win3_1.index t (1 : Fin 2) = 0
    ∧ win3_3.index t (0 : Fin 2) ≤ 19 :=
  (by decide +kernel : ∀ t : Fin grid3.N, _)

/-- Every row block is some point's. -/
theorem row_block_onto : ∀ (r : Fin 20), ∃ t : Fin cfg3.N, win3_3.index t = ![r.val, 0] :=
  (by decide +kernel : ∀ (r : Fin 20), ∃ t : Fin grid3.N, win3_3.index t = ![r.val, 0])

/-- What point t writes back is row block t of the result array. -/
theorem flushed_eq (c : Dev nD) (t : Fin cfg3.N) :
    (dat3 V c).flushed 3 t
      = ((cfg3.win 3).blk t).view.read (Elt Ideal) (G (V c main_v56) (V c main_v57) (V c main_v42)) := by
  show (cfg3.win 3).cut (grid3.coords t) ((dat3 V c).after 3 t) = _
  rw [after3_3]
  unfold out3_3
  rw [View.canon_unit_zero zero_offset]
  simp only [View.ld_unit_zero (S := S5000x64) zero_offset, View.ld_unit_zero (S := S1x64) zero_offset]
  obtain ⟨e0, e1, e2, e3, e4, e5, e6, e7⟩ := block_indices t
  funext j
  obtain ⟨p, q, rfl⟩ : ∃ (p : Fin 5000) (q : Fin 64), j = ix2 p q := ⟨j 0, j 1, eq_ix2 j⟩
  show k3_pay1 (iblk3 V c 0 t) (iblk3 V c 1 t) (iblk3 V c 2 t) (ix2 p q)
    = G (V c main_v56) (V c main_v57) (V c main_v42) (((cfg3.win 3).blk t).view.emb (ix2 p q))
  rw [payload_apply]
  have rows_agree : ((cfg3.win 0).blk t).view.emb (ix2 p q) = ((cfg3.win 3).blk t).view.emb (ix2 p q) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 64 + 1 * q.val = win3_3.index t (1 : Fin 2) * 64 + 1 * q.val; omega
  have residual_rows_agree : ((cfg3.win 2).blk t).view.emb (ix2 p q) = ((cfg3.win 3).blk t).view.emb (ix2 p q) := by
    funext a; apply Fin.ext
    match a with
    | ⟨0, _⟩ => show win3_2.index t (0 : Fin 2) * 5000 + 1 * p.val = win3_3.index t (0 : Fin 2) * 5000 + 1 * p.val; omega
    | ⟨1, _⟩ => show win3_2.index t (1 : Fin 2) * 64 + 1 * q.val = win3_3.index t (1 : Fin 2) * 64 + 1 * q.val; omega
  have bias_entry : ((cfg3.win 1).blk t).view.emb (ix2 (0 : Fin 1) q)
      = ix2 (0 : Fin 1) ⟨((((cfg3.win 3).blk t).view.emb (ix2 p q)) 1).val, ((((cfg3.win 3).blk t).view.emb (ix2 p q)) 1).isLt⟩ := by
    funext a; apply Fin.ext
    match a with
    | ⟨0, _⟩ => show win3_1.index t (0 : Fin 2) * 1 + 1 * 0 = 0; omega
    | ⟨1, _⟩ => show win3_1.index t (1 : Fin 2) * 64 + 1 * q.val = win3_3.index t (1 : Fin 2) * 64 + 1 * q.val; omega
  exact entry_eq (V c main_v56) (V c main_v57) (V c main_v42) _ _ _ _ rows_agree bias_entry residual_rows_agree

/-- An index of the array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v58).slice (win3_3.rect t)).set ↔ _
  rw [View.set_slice_whole, Rect.mem_set_unit]
  exact Iff.rfl

/-- The row blocks tile the array: row r is in the block of the point whose block index is r / 5000. -/
theorem cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ := row_block_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- After the region its result array is that function of its three operand arrays as the region found them. -/
theorem final (c : Dev nD) : (dat3 V c).arrAt 3 cfg3.N = G (V c main_v56) (V c main_v57) (V c main_v42) :=
  (dat3 V c).arrAt_eq_of_cover 3 (G (V c main_v56) (V c main_v57) (V c main_v42)) (fun t _ => flushed_eq V c t) cover

end Cert.KernelIdeal.Reg3

end
-- ==== Proof.KHost.lean ====
/-
  The host operations of the kernel program between its four regions, read at the buffers the regions and the
  result depend on. The program's host side is the reference's own chain: the edge list with one self loop per node
  appended, the in-degree of every node as a scatter-add of ones, its inverse square root gathered at both ends of
  every edge and multiplied (the edge weight), and, per layer, the rows of the dense product gathered at the edge
  sources, scaled by the edge weights and scatter-added at the edge targets. Each buffer is stated as the
  reference's own stage function of the argument arrays, so that nothing of the chain is opened afterwards: the two
  sides spell the same operations with the same dimension records.
-/
import proofs.«144482_j32693291057233_1_alg».proof.Proof.Gen.KernelIdeal.Frame
import proofs.«144482_j32693291057233_1_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KHost

open Cert.KernelIdeal Cert.KernelIdeal.Gen Idealize.ShloMosaic Idealize.ShloMosaic.TcCoe Idealize.ShloMosaic.ValueIdx Idealize.SL.Sem
open Idealize.ShloMosaic.StableHlo
open Cert.ReferenceIdeal.Read (val_main_v5 val_main_v6 val_main_v26 val_main_v27 val_main_v40 val_main_v68 val_main_v81)

variable (m : (ℓ : Loc nD τ sig) → Buf (Elt Ideal) ℓ) (ρ : Dev nD → PrngReg) (c : Dev nD)

/-- A buffer that no operation of a host stretch writes holds after the stretch what it held before it: every
    operation of the stretch writes one buffer, and that buffer is another reference. -/
local macro "stretch_keeps" ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Region 0's operands are the launch contents: no host operation before it writes an argument -/

theorem W1_arg0 : W1 m ρ c (Proc.devRef .tc main_arg0) = m ((c.tc : Thread nD τ).loc main_arg0) := by
  show StableHlo.after hostOps0 (W0 m ρ c) (Proc.devRef .tc main_arg0) = W0 m ρ c (Proc.devRef .tc main_arg0)
  stretch_keeps hostOps0

theorem W1_arg2 : W1 m ρ c (Proc.devRef .tc main_arg2) = m ((c.tc : Thread nD τ).loc main_arg2) := by
  show StableHlo.after hostOps0 (W0 m ρ c) (Proc.devRef .tc main_arg2) = W0 m ρ c (Proc.devRef .tc main_arg2)
  stretch_keeps hostOps0

/-! ## The edge lists with self loops and the edge weights, before region 0 -/

/-- The edge sources with one self loop per node appended. -/
theorem W1_v5 : W1 m ρ c (Proc.devRef .tc main_v5) = val_main_v5 (F := Ideal) (m ((c.tc : Thread nD τ).loc main_arg1)) := by
  show StableHlo.after hostOps0 (W0 m ρ c) (Proc.devRef .tc main_v5) = _
  after_results
  unfold val_main_v5 Cert.ReferenceIdeal.Read.val_main_v1 Cert.ReferenceIdeal.Read.val_main_v0 Cert.ReferenceIdeal.Read.val_main_v4
  rfl

/-- The edge targets with one self loop per node appended. -/
theorem W1_v6 : W1 m ρ c (Proc.devRef .tc main_v6) = val_main_v6 (F := Ideal) (m ((c.tc : Thread nD τ).loc main_arg1)) := by
  show StableHlo.after hostOps0 (W0 m ρ c) (Proc.devRef .tc main_v6) = _
  after_results
  unfold val_main_v6 Cert.ReferenceIdeal.Read.val_main_v3 Cert.ReferenceIdeal.Read.val_main_v2 Cert.ReferenceIdeal.Read.val_main_v4
  rfl

set_option maxHeartbeats 400000 in
/-- The edge weights: the inverse square roots of the in-degrees at both ends of every edge, multiplied. -/
theorem W1_v26 : W1 m ρ c (Proc.devRef .tc main_v26) = val_main_v26 (F := Ideal) (m ((c.tc : Thread nD τ).loc main_arg1)) := by
  show StableHlo.after hostOps0 (W0 m ρ c) (Proc.devRef .tc main_v26) = _
  after_results_simp
  unfold val_main_v26 Cert.ReferenceIdeal.Read.val_main_v18 Cert.ReferenceIdeal.Read.val_main_v25 Cert.ReferenceIdeal.Read.val_main_v11 Cert.ReferenceIdeal.Read.val_main_v10 Cert.ReferenceIdeal.Read.val_main_v8 Cert.ReferenceIdeal.Read.val_main_v9 Cert.ReferenceIdeal.Read.val_main_v7 Cert.ReferenceIdeal.Read.val_main_cst Cert.ReferenceIdeal.Read.val_main_cst_0 Cert.ReferenceIdeal.Read.val_main_v17 Cert.ReferenceIdeal.Read.val_main_v16 Cert.ReferenceIdeal.Read.val_main_v13 Cert.ReferenceIdeal.Read.val_main_v15 Cert.ReferenceIdeal.Read.val_main_v12 Cert.ReferenceIdeal.Read.val_main_v14 Cert.ReferenceIdeal.Read.val_main_c Cert.ReferenceIdeal.Read.val_main_c_1 Cert.ReferenceIdeal.Read.val_main_v24 Cert.ReferenceIdeal.Read.val_main_v23 Cert.ReferenceIdeal.Read.val_main_v20 Cert.ReferenceIdeal.Read.val_main_v22 Cert.ReferenceIdeal.Read.val_main_v19 Cert.ReferenceIdeal.Read.val_main_v21 Cert.ReferenceIdeal.Read.val_main_c_2 Cert.ReferenceIdeal.Read.val_main_c_3 Cert.ReferenceIdeal.Read.val_main_v5 Cert.ReferenceIdeal.Read.val_main_v6 Cert.ReferenceIdeal.Read.val_main_v1 Cert.ReferenceIdeal.Read.val_main_v0 Cert.ReferenceIdeal.Read.val_main_v3 Cert.ReferenceIdeal.Read.val_main_v2 Cert.ReferenceIdeal.Read.val_main_v4
  rfl

/-! ## Between regions 0 and 1: the first aggregation and the bias row -/

/-- The first bias vector is still the launch contents at region 0's exit: region 0 does not touch it and no host
    operation before it writes an argument. -/
theorem W2_arg3 : W2 m ρ c (Proc.devRef .tc main_arg3) = m ((c.tc : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by
          show StableHlo.after hostOps0 (W0 m ρ c) (Proc.devRef .tc main_arg3) = _
          stretch_keeps hostOps0
    _ = m ((c.tc : Thread nD τ).loc main_arg3) := rfl

/-- The first layer's aggregation, once the first product is the reference's. -/
theorem W3_v40
    (h27 : W2 m ρ c (Proc.devRef .tc main_v27)
      = val_main_v27 (F := Ideal) (m ((c.tc : Thread nD τ).loc main_arg0)) (m ((c.tc : Thread nD τ).loc main_arg2))) :
    W3 m ρ c (Proc.devRef .tc main_v40)
      = val_main_v40 (F := Ideal) (m ((c.tc : Thread nD τ).loc main_arg0)) (m ((c.tc : Thread nD τ).loc main_arg1))
          (m ((c.tc : Thread nD τ).loc main_arg2)) := by
  show StableHlo.after hostOps1 (W2 m ρ c) (Proc.devRef .tc main_v40) = _
  after_results_simp
  rw [h27, W2_of_ne m ρ c main_v5 (by decide), W2_of_ne m ρ c main_v6 (by decide),
    W2_of_ne m ρ c main_v26 (by decide), W1_v5, W1_v6, W1_v26]
  unfold val_main_v40 Cert.ReferenceIdeal.Read.val_main_v39 Cert.ReferenceIdeal.Read.val_main_v37 Cert.ReferenceIdeal.Read.val_main_v34 Cert.ReferenceIdeal.Read.val_main_v33 Cert.ReferenceIdeal.Read.val_main_v32 Cert.ReferenceIdeal.Read.val_main_v29 Cert.ReferenceIdeal.Read.val_main_v31 Cert.ReferenceIdeal.Read.val_main_v28 Cert.ReferenceIdeal.Read.val_main_v30 Cert.ReferenceIdeal.Read.val_main_c_4 Cert.ReferenceIdeal.Read.val_main_c_5 Cert.ReferenceIdeal.Read.val_main_v36 Cert.ReferenceIdeal.Read.val_main_v35 Cert.ReferenceIdeal.Read.val_main_v38 Cert.ReferenceIdeal.Read.val_main_cst_6
  rfl

/-- The first bias as a row: its entry (0, q) is the bias vector's entry q. -/
theorem W3_v41 (q : Fin 64) :
    W3 m ρ c (Proc.devRef .tc main_v41) (ix2 (0 : Fin 1) q) = m ((c.tc : Thread nD τ).loc main_arg3) (ix1 q) := by
  show StableHlo.after hostOps1 (W2 m ρ c) (Proc.devRef .tc main_v41) (ix2 (0 : Fin 1) q) = _
  after_results
  rw [W2_arg3]
  show shapeCast S1x64 (m ((c.tc : Thread nD τ).loc main_arg3)) shapeCasts_S64_S1x64 (ix2 (0 : Fin 1) q) = _
  exact shapeCast_apply _ shapeCasts_S64_S1x64 (ix2 (0 : Fin 1) q) (ix1 q)
    (by rewrite [Shape.rowMajor_val_two, Shape.rowMajor_val_one]; show q.val = 0 * 64 + q.val; omega)

/-! ## Region 2's second operand is the launch contents -/

theorem W4_arg4 : W4 m ρ c (Proc.devRef .tc main_arg4) = m ((c.tc : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by
          show StableHlo.after hostOps1 (W2 m ρ c) (Proc.devRef .tc main_arg4) = _
          stretch_keeps hostOps1
    _ = W1 m ρ c (Proc.devRef .tc main_arg4) := W2_of_ne m ρ c main_arg4 (by decide)
    _ = W0 m ρ c (Proc.devRef .tc main_arg4) := by
          show StableHlo.after hostOps0 (W0 m ρ c) (Proc.devRef .tc main_arg4) = _
          stretch_keeps hostOps0
    _ = m ((c.tc : Thread nD τ).loc main_arg4) := rfl

/-! ## Between regions 2 and 3: the second aggregation, the bias row, and the first layer's activations kept -/

/-- The edge sources are unchanged up to region 2's exit: no region holds them in a window and the host operations between regions 0 and 1 write other buffers. -/
theorem W5_v5 : W5 m ρ c (Proc.devRef .tc main_v5) = val_main_v5 (F := Ideal) (m ((c.tc : Thread nD τ).loc main_arg1)) :=
  calc W5 m ρ c (Proc.devRef .tc main_v5)
    _ = W4 m ρ c (Proc.devRef .tc main_v5) := W5_of_ne m ρ c main_v5 (by decide)
    _ = W3 m ρ c (Proc.devRef .tc main_v5) := W4_of_ne m ρ c main_v5 (by decide)
    _ = W2 m ρ c (Proc.devRef .tc main_v5) := by
          show StableHlo.after hostOps1 (W2 m ρ c) (Proc.devRef .tc main_v5) = _
          stretch_keeps hostOps1
    _ = W1 m ρ c (Proc.devRef .tc main_v5) := W2_of_ne m ρ c main_v5 (by decide)
    _ = val_main_v5 (F := Ideal) (m ((c.tc : Thread nD τ).loc main_arg1)) := W1_v5 m ρ c
/-- The edge targets are unchanged up to region 2's exit. -/
theorem W5_v6 : W5 m ρ c (Proc.devRef .tc main_v6) = val_main_v6 (F := Ideal) (m ((c.tc : Thread nD τ).loc main_arg1)) :=
  calc W5 m ρ c (Proc.devRef .tc main_v6)
    _ = W4 m ρ c (Proc.devRef .tc main_v6) := W5_of_ne m ρ c main_v6 (by decide)
    _ = W3 m ρ c (Proc.devRef .tc main_v6) := W4_of_ne m ρ c main_v6 (by decide)
    _ = W2 m ρ c (Proc.devRef .tc main_v6) := by
          show StableHlo.after hostOps1 (W2 m ρ c) (Proc.devRef .tc main_v6) = _
          stretch_keeps hostOps1
    _ = W1 m ρ c (Proc.devRef .tc main_v6) := W2_of_ne m ρ c main_v6 (by decide)
    _ = val_main_v6 (F := Ideal) (m ((c.tc : Thread nD τ).loc main_arg1)) := W1_v6 m ρ c
/-- The edge weights are unchanged up to region 2's exit. -/
theorem W5_v26 : W5 m ρ c (Proc.devRef .tc main_v26) = val_main_v26 (F := Ideal) (m ((c.tc : Thread nD τ).loc main_arg1)) :=
  calc W5 m ρ c (Proc.devRef .tc main_v26)
    _ = W4 m ρ c (Proc.devRef .tc main_v26) := W5_of_ne m ρ c main_v26 (by decide)
    _ = W3 m ρ c (Proc.devRef .tc main_v26) := W4_of_ne m ρ c main_v26 (by decide)
    _ = W2 m ρ c (Proc.devRef .tc main_v26) := by
          show StableHlo.after hostOps1 (W2 m ρ c) (Proc.devRef .tc main_v26) = _
          stretch_keeps hostOps1
    _ = W1 m ρ c (Proc.devRef .tc main_v26) := W2_of_ne m ρ c main_v26 (by decide)
    _ = val_main_v26 (F := Ideal) (m ((c.tc : Thread nD τ).loc main_arg1)) := W1_v26 m ρ c
/-- The second bias vector is still the launch contents at region 2's exit. -/
theorem W5_arg5 : W5 m ρ c (Proc.devRef .tc main_arg5) = m ((c.tc : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := by
          show StableHlo.after hostOps1 (W2 m ρ c) (Proc.devRef .tc main_arg5) = _
          stretch_keeps hostOps1
    _ = W1 m ρ c (Proc.devRef .tc main_arg5) := W2_of_ne m ρ c main_arg5 (by decide)
    _ = W0 m ρ c (Proc.devRef .tc main_arg5) := by
          show StableHlo.after hostOps0 (W0 m ρ c) (Proc.devRef .tc main_arg5) = _
          stretch_keeps hostOps0
    _ = m ((c.tc : Thread nD τ).loc main_arg5) := rfl
/-- The reference builds the edge lists and the edge weights a second time for its second layer, by the same operations
    on the same argument: the second copies are the first. -/
theorem v46_eq (x1 : (⟨Cert.ReferenceIdeal.S2x1600000, .i32⟩ : BufTy).Contents (Elt Ideal)) :
    Cert.ReferenceIdeal.Read.val_main_v46 (F := Ideal) x1 = val_main_v5 (F := Ideal) x1 := rfl
theorem v47_eq (x1 : (⟨Cert.ReferenceIdeal.S2x1600000, .i32⟩ : BufTy).Contents (Elt Ideal)) :
    Cert.ReferenceIdeal.Read.val_main_v47 (F := Ideal) x1 = val_main_v6 (F := Ideal) x1 := rfl
theorem v67_eq (x1 : (⟨Cert.ReferenceIdeal.S2x1600000, .i32⟩ : BufTy).Contents (Elt Ideal)) :
    Cert.ReferenceIdeal.Read.val_main_v67 (F := Ideal) x1 = val_main_v26 (F := Ideal) x1 := rfl

/-- The second layer's aggregation, once the second product is the reference's. -/
theorem W6_v56
    (h43 : W5 m ρ c (Proc.devRef .tc main_v43)
      = val_main_v68 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) :
    W6 m ρ c (Proc.devRef .tc main_v56)
      = val_main_v81 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  show StableHlo.after hostOps3 (W5 m ρ c) (Proc.devRef .tc main_v56) = _
  after_results_simp
  rw [h43, W5_v5, W5_v6, W5_v26]
  unfold val_main_v81 Cert.ReferenceIdeal.Read.val_main_v80 Cert.ReferenceIdeal.Read.val_main_v78 Cert.ReferenceIdeal.Read.val_main_v75 Cert.ReferenceIdeal.Read.val_main_v74 Cert.ReferenceIdeal.Read.val_main_v73 Cert.ReferenceIdeal.Read.val_main_v70 Cert.ReferenceIdeal.Read.val_main_v72 Cert.ReferenceIdeal.Read.val_main_v69 Cert.ReferenceIdeal.Read.val_main_v71 Cert.ReferenceIdeal.Read.val_main_c_13 Cert.ReferenceIdeal.Read.val_main_c_14 Cert.ReferenceIdeal.Read.val_main_v77 Cert.ReferenceIdeal.Read.val_main_v76 Cert.ReferenceIdeal.Read.val_main_v79 Cert.ReferenceIdeal.Read.val_main_cst_15
  rw [v46_eq, v47_eq, v67_eq]
  rfl

/-- The second bias as a row: its entry (0, q) is the bias vector's entry q. -/
theorem W6_v57 (q : Fin 64) :
    W6 m ρ c (Proc.devRef .tc main_v57) (ix2 (0 : Fin 1) q) = m ((c.tc : Thread nD τ).loc main_arg5) (ix1 q) := by
  show StableHlo.after hostOps3 (W5 m ρ c) (Proc.devRef .tc main_v57) (ix2 (0 : Fin 1) q) = _
  after_results
  rw [W5_arg5]
  show shapeCast S1x64 (m ((c.tc : Thread nD τ).loc main_arg5)) shapeCasts_S64_S1x64 (ix2 (0 : Fin 1) q) = _
  exact shapeCast_apply _ shapeCasts_S64_S1x64 (ix2 (0 : Fin 1) q) (ix1 q)
    (by rewrite [Shape.rowMajor_val_two, Shape.rowMajor_val_one]; show q.val = 0 * 64 + q.val; omega)

/-- The first layer's activations reach region 3 as region 1 left them: region 2 only reads them and no host
    operation after it writes them. -/
theorem W6_v42 : W6 m ρ c (Proc.devRef .tc main_v42) = W4 m ρ c (Proc.devRef .tc main_v42) :=
  calc W6 m ρ c (Proc.devRef .tc main_v42)
    _ = W5 m ρ c (Proc.devRef .tc main_v42) := by
          show StableHlo.after hostOps3 (W5 m ρ c) (Proc.devRef .tc main_v42) = _
          stretch_keeps hostOps3
    _ = W4 m ρ c (Proc.devRef .tc main_v42) :=
          (W5_arr m ρ c 0).trans (((dat2 (V4 m ρ) c).arrAt_in 0 rfl _).trans (A_eq2 (V4 m ρ) c 0))

end Cert.KernelIdeal.KHost

end
-- ==== Proof.KValue.lean ====
/-
  The result of the kernel program as the reference's function of the argument arrays. Going through the program in
  order: the first region's result is the dense product x · W1, entry by entry the same sum as the reference's
  product; the host chain after it is the reference's aggregation; the second region adds the bias row and takes
  the maximum with zero, which is the reference's biased, rectified array h; the third region's result is the
  product h · W2; the host chain after it is the reference's second aggregation; and the last region returns
  max(agg2 + b2, 0) + h, the reference's result. The only arithmetic facts used are that a block-wise matrix
  product and a whole one have the same entries, and that the bias row broadcast over the rows is the bias vector
  broadcast twice.
-/
import proofs.«144482_j32693291057233_1_alg».proof.Proof.Reg0
import proofs.«144482_j32693291057233_1_alg».proof.Proof.Reg1
import proofs.«144482_j32693291057233_1_alg».proof.Proof.Reg2
import proofs.«144482_j32693291057233_1_alg».proof.Proof.Reg3
import proofs.«144482_j32693291057233_1_alg».proof.Proof.KHost
import proofs.«144482_j32693291057233_1_alg».proof.Proof.Gen.ReferenceIdeal.Read

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx Idealize.SL.Sem
open Cert.ReferenceIdeal.Read

/-! ## The two products: the row-block product has the entries of the whole product -/

theorem product1_eq (x : FVec Ideal S100000x128 .f32) (w : FVec Ideal S128x64 .f32) :
    Reg0.G x w = val_main_v27 (F := Ideal) x w := by
  funext i
  rw [val_main_v27_apply]
  unfold Reg0.G
  refine Finset.sum_congr rfl fun k _ => ?_
  have hl : (ix2 ⟨(i 0).val, (i 0).isLt⟩ k : S100000x128.Idx) = lidx_main_v27 i k :=
    funext fun a => match a with | ⟨0, _⟩ => rfl | ⟨1, _⟩ => rfl
  have hr : (ix2 k ⟨(i 1).val, (i 1).isLt⟩ : S128x64.Idx) = ridx_main_v27 i k :=
    funext fun a => match a with | ⟨0, _⟩ => rfl | ⟨1, _⟩ => rfl
  rw [hl, hr]

/-! ## The bias rows: the row's entry (0, q) is the bias vector's entry q, which is what two broadcasts read -/

/-- Bias row added and the maximum with zero taken, against the reference's broadcast bias: the same entry. -/
theorem biasRelu_eq (A A' : FVec Ideal S100000x64 .f32) (B : FVec Ideal S1x64 .f32) (x3 : FVec Ideal S64 .f32)
    (hA : A = A') (hB : ∀ q : Fin 64, B (ix2 (0 : Fin 1) q) = x3 (ix1 q)) (i : S100000x64.Idx) :
    Reg1.G A B i
      = FloatOps.maximumf (FloatOps.addf (A' i) (x3 (idx_main_v41 (idx_main_v42 i)))) (FloatOps.ofBits .f32 0x00000000#32) := by
  subst hA
  unfold Reg1.G
  have hidx : idx_main_v41 (idx_main_v42 i) = ix1 ⟨(i 1).val, (i 1).isLt⟩ :=
    funext fun a => match a with | ⟨0, _⟩ => rfl
  rw [hidx]
  exact congrArg (fun z => max (A i + z) (Ideal.ofBits .f32 0x00000000#32)) (hB ⟨(i 1).val, (i 1).isLt⟩)

/-- The same with the residual added. -/
theorem biasReluResidual_eq (A A' : FVec Ideal S100000x64 .f32) (B : FVec Ideal S1x64 .f32) (x5 : FVec Ideal S64 .f32)
    (H H' : FVec Ideal S100000x64 .f32)
    (hA : A = A') (hB : ∀ q : Fin 64, B (ix2 (0 : Fin 1) q) = x5 (ix1 q)) (hH : H = H') (i : S100000x64.Idx) :
    Reg3.G A B H i
      = FloatOps.addf (FloatOps.maximumf (FloatOps.addf (A' i) (x5 (idx_main_v82 (idx_main_v83 i))))
          (FloatOps.ofBits .f32 0x00000000#32)) (H' i) := by
  subst hA hH
  unfold Reg3.G
  have hidx : idx_main_v82 (idx_main_v83 i) = ix1 ⟨(i 1).val, (i 1).isLt⟩ :=
    funext fun a => match a with | ⟨0, _⟩ => rfl
  rw [hidx]
  exact congrArg (fun z => max (A i + z) (Ideal.ofBits .f32 0x00000000#32) + H i) (hB ⟨(i 1).val, (i 1).isLt⟩)

variable (m : (ℓ : Loc nD τ sig) → Buf (Elt Ideal) ℓ) (ρ : Dev nD → PrngReg) (c : Dev nD)

/-- The first region leaves the reference's first product. -/
theorem lin1 : W2 m ρ c (Proc.devRef .tc main_v27)
    = val_main_v27 (F := Ideal) (m ((c.tc : Thread nD τ).loc main_arg0)) (m ((c.tc : Thread nD τ).loc main_arg2)) := by
  refine (W2_arr m ρ c 2).trans ?_
  rw [Reg0.final (V1 m ρ) c]
  rw [show V1 m ρ c main_arg0 = m ((c.tc : Thread nD τ).loc main_arg0) from KHost.W1_arg0 m ρ c,
    show V1 m ρ c main_arg2 = m ((c.tc : Thread nD τ).loc main_arg2) from KHost.W1_arg2 m ρ c]
  exact product1_eq _ _

/-- The second region leaves the reference's first activations: the bias row at (0, q) is the bias vector at q,
    which is what the reference's two broadcasts read. -/
theorem act1 : W4 m ρ c (Proc.devRef .tc main_v42)
    = val_main_v44 (F := Ideal) (m ((c.tc : Thread nD τ).loc main_arg0)) (m ((c.tc : Thread nD τ).loc main_arg1))
        (m ((c.tc : Thread nD τ).loc main_arg2)) (m ((c.tc : Thread nD τ).loc main_arg3)) := by
  refine (W4_arr m ρ c 2).trans ?_
  rw [Reg1.final (V3 m ρ) c]
  funext i
  rw [val_main_v44_apply, val_main_v43_apply, val_main_call0_v0_apply, val_main_call0_cst_apply, val_main_v42_apply,
    val_main_v41_apply]
  exact biasRelu_eq _ _ _ _ (KHost.W3_v40 m ρ c (lin1 m ρ c)) (fun q => KHost.W3_v41 m ρ c q) i

/-- The third region leaves the reference's second product. -/
theorem lin2 : W5 m ρ c (Proc.devRef .tc main_v43)
    = val_main_v68 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W5_arr m ρ c 2).trans ?_
  rw [Reg2.final (V4 m ρ) c]
  rw [show V4 m ρ c main_v42 = _ from act1 m ρ c,
    show V4 m ρ c main_arg4 = m ((c.tc : Thread nD τ).loc main_arg4) from KHost.W4_arg4 m ρ c]
  funext i
  rw [val_main_v68_apply]
  unfold Reg2.G
  refine Finset.sum_congr rfl fun k _ => ?_
  have hl : (ix2 ⟨(i 0).val, (i 0).isLt⟩ k : S100000x64.Idx) = lidx_main_v68 i k :=
    funext fun a => match a with | ⟨0, _⟩ => rfl | ⟨1, _⟩ => rfl
  have hr : (ix2 k ⟨(i 1).val, (i 1).isLt⟩ : S64x64.Idx) = ridx_main_v68 i k :=
    funext fun a => match a with | ⟨0, _⟩ => rfl | ⟨1, _⟩ => rfl
  rw [hl, hr]

/-- The last region leaves the reference's result. -/
theorem result : W7 m ρ c (Proc.devRef .tc main_v58)
    = val_main_v86 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) := by
  refine (W7_arr m ρ c 3).trans ?_
  rw [Reg3.final (V6 m ρ) c]
  funext i
  rw [val_main_v86_apply, val_main_v85_apply, val_main_v84_apply, val_main_call1_v0_apply, val_main_call1_cst_apply,
    val_main_v83_apply, val_main_v82_apply]
  exact biasReluResidual_eq _ _ _ _ _ _ (KHost.W6_v56 m ρ c (lin2 m ρ c)) (fun q => KHost.W6_v57 m ρ c q)
    ((KHost.W6_v42 m ρ c).trans (act1 m ρ c)) i

end Cert.KernelIdeal.KValue

end
-- ==== Proof.lean ====
/-
  The certificate of a two-layer graph convolution: each layer is a dense product, an aggregation over the edges
  (self loops added, every edge weighted by the inverse square roots of its end nodes' in-degrees) and a bias with
  a rectifier, the second layer adding the first layer's activations back. The kernel program computes the two
  products and the two bias-and-rectifier stages in four row-blocked regions and leaves the aggregations to the
  host, with the reference's own operations; the reference does everything on the host. Over the extended reals
  the two agree on every input: narrowing a product's operands is the identity there, a row-block product has the
  entries of the whole product, and the bias row broadcast over the rows is the bias vector broadcast. No law that
  needs finiteness is used, so the precondition is not opened. The three frames are the generated ones (the
  reference's is its run with the result dropped), and the idealization rewrote nothing.
-/
import proofs.«144482_j32693291057233_1_alg».proof.Defs
import proofs.«144482_j32693291057233_1_alg».proof.Proof.Gen.Kernel
import proofs.«144482_j32693291057233_1_alg».proof.Proof.Gen.Kernel.Frame
import proofs.«144482_j32693291057233_1_alg».proof.Proof.Gen.KernelIdeal
import proofs.«144482_j32693291057233_1_alg».proof.Proof.Gen.KernelIdeal.Frame
import proofs.«144482_j32693291057233_1_alg».proof.Proof.Gen.ReferenceIdeal
import proofs.«144482_j32693291057233_1_alg».proof.Proof.Gen.ReferenceIdeal.Run
import proofs.«144482_j32693291057233_1_alg».proof.Proof.Gen.ReferenceIdeal.Read
import proofs.«144482_j32693291057233_1_alg».proof.Proof.Gen.Pre_finite_inputs
import proofs.«144482_j32693291057233_1_alg».proof.Proof.KRun
import proofs.«144482_j32693291057233_1_alg».proof.Proof.KValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs, from memories that agree on the arguments, end with the reference's function of the arguments in
    their result arrays: the kernel program by the reading of its four regions and three host stretches, the
    reference by its own run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W7 m ρ c (Proc.devRef .tc Cert.KernelIdeal.main_v58), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v86_eq, (hagree c).1, (hagree c).2.1, (hagree c).2.2.1, (hagree c).2.2.2.1,
    (hagree c).2.2.2.2.1, (hagree c).2.2.2.2.2]
  exact (Cert.KernelIdeal.KValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
